-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S64x512 : Shape := ⟨2, ![64, 512]⟩
abbrev S64 : Shape := ⟨1, ![64]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S32x2048x512 .f32) (main_arg1 : FVec F S64x512 .f32) (main_arg2 : FVec F S64x512 .f32) (main_arg3 : FVec F S64 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S32x2048x512 : Shape := ⟨3, ![32, 2048, 512]⟩
abbrev S64x512 : Shape := ⟨2, ![64, 512]⟩
abbrev S64 : Shape := ⟨1, ![64]⟩
abbrev S512x64 : Shape := ⟨2, ![512, 64]⟩
abbrev S1x64 : Shape := ⟨2, ![1, 64]⟩
abbrev S32x64x512 : Shape := ⟨3, ![32, 64, 512]⟩
abbrev S1x2048x512 : Shape := ⟨3, ![1, 2048, 512]⟩
abbrev S1x64x512 : Shape := ⟨3, ![1, 64, 512]⟩
abbrev S2048x512 : Shape := ⟨2, ![2048, 512]⟩
abbrev S2048x64 : Shape := ⟨2, ![2048, 64]⟩
abbrev S2048 : Shape := ⟨1, ![2048]⟩
abbrev S2048x1 : Shape := ⟨2, ![2048, 1]⟩
abbrev S64x1 : Shape := ⟨2, ![64, 1]⟩
abbrev S1 : Shape := ⟨1, ![1]⟩
abbrev S1x1 : Shape := ⟨2, ![1, 1]⟩
abbrev S32x32768 : Shape := ⟨2, ![32, 32768]⟩

abbrev nBuf : Space → Nat
  | .hbm => 8
  | .vmem => 7
  | .smem => 0
  | _ => 0

abbrev bufTy : (tb : Table) → Fin (tcTables nBuf tb) → BufTy
  | .hbm, ⟨0, _⟩ => ⟨S32x2048x512, .f32⟩
  | .hbm, ⟨1, _⟩ => ⟨S64x512, .f32⟩
  | .hbm, ⟨2, _⟩ => ⟨S64x512, .f32⟩
  | .hbm, ⟨3, _⟩ => ⟨S64, .f32⟩
  | .hbm, ⟨4, _⟩ => ⟨S512x64, .f32⟩
  | .hbm, ⟨5, _⟩ => ⟨S1x64, .f32⟩
  | .hbm, ⟨6, _⟩ => ⟨S32x64x512, .f32⟩
  | .hbm, ⟨7, _⟩ => ⟨S32x32768, .f32⟩
  | .local _ .vmem, ⟨0, _⟩ => ⟨S1x2048x512, .f32⟩
  | .local _ .vmem, ⟨1, _⟩ => ⟨S1x2048x512, .f32⟩
  | .local _ .vmem, ⟨2, _⟩ => ⟨S512x64, .f32⟩
  | .local _ .vmem, ⟨3, _⟩ => ⟨S1x64, .f32⟩
  | .local _ .vmem, ⟨4, _⟩ => ⟨S64x512, .f32⟩
  | .local _ .vmem, ⟨5, _⟩ => ⟨S1x64x512, .f32⟩
  | .local _ .vmem, ⟨6, _⟩ => ⟨S1x64x512, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x512_S512x64_1_0 : S64x512.Transposes [1, 0] S512x64
  shapeCasts_S64_S1x64 : S64.ShapeCasts S1x64
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x512_S64x512_0_0 : ∀ a, (![0, 0] : Fin 2 → Nat) a + S64x512.size a ≤ S64x512.size a
  h_S64x512 : 0 < S64x512.numel
  bitsLt_bf16_f32 : FTy.bits .bf16 < FTy.bits .f32
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  reduces_S2048x64_S64 : S2048x64.Reduces [0] S64
  shapeCasts_S64_S64x1 : S64.ShapeCasts S64x1
  broadcasts_S64x1_S64x512 : S64x1.Broadcasts S64x512
  reduces_S64x512_S64 : S64x512.Reduces [1] S64
  reduces_S64x1_S1 : S64x1.Reduces [0] S1
  shapeCasts_S1_S1x1 : S1.ShapeCasts S1x1
  broadcasts_S1x1_S64x512 : S1x1.Broadcasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  shapeCasts_S32x64x512_S32x32768 : S32x64x512.ShapeCasts S32x32768
  dot_S2048x512_S512x64_S2048x64_1_0_0_1_n_n_wf : DotDims.WF S2048x512 S512x64 S2048x64 [1] [0] [0] [1] [] []
  dot_S2048x64_S2048x512_S64x512_0_0_1_1_n_n_wf : DotDims.WF S2048x64 S2048x512 S64x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x2048x512.size a
  hwx0_0 : ∀ i : grid0.Coords, EltTy.bits .f32 = 32 ∨ (Rect.block (s := S32x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S32x64x512.size a
  hwx0_4 : ∀ i : grid0.Coords, EltTy.bits .f32 = 32 ∨ (Rect.block (s := S32x64x512) S1x64x512.size (cc0_transform_4 i) (hinb0_4 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S2048x512_S64x512_0_0_1_1_n_n : DotDims S2048x64 S2048x512 S64x512 where
  lhsContracting := [0]
  rhsContracting := [0]
  lhsNonContracting := [1]
  rhsNonContracting := [1]
  lhsBatch := []
  rhsBatch := []
  wf := dot_S2048x64_S2048x512_S64x512_0_0_1_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S64x512 : Shape := ⟨2, ![64, 512]⟩
abbrev S64 : Shape := ⟨1, ![64]⟩
abbrev S64x32x2048 : Shape := ⟨3, ![64, 32, 2048]⟩
abbrev S32x64x2048 : Shape := ⟨3, ![32, 64, 2048]⟩
abbrev S1x64x1 : Shape := ⟨3, ![1, 64, 1]⟩
abbrev S_ : Shape := ⟨0, ![]⟩
abbrev S32x2048 : Shape := ⟨2, ![32, 2048]⟩
abbrev S32x1x2048 : Shape := ⟨3, ![32, 1, 2048]⟩
abbrev S32x64x512 : Shape := ⟨3, ![32, 64, 512]⟩
abbrev S32x64 : Shape := ⟨2, ![32, 64]⟩
abbrev S32x64x1 : Shape := ⟨3, ![32, 64, 1]⟩
abbrev S1x64x512 : Shape := ⟨3, ![1, 64, 512]⟩
abbrev S32x32768 : Shape := ⟨2, ![32, 32768]⟩
abbrev S32 : Shape := ⟨1, ![32]⟩
abbrev S32x1 : Shape := ⟨2, ![32, 1]⟩

abbrev nBuf : Space → Nat
  | .hbm => 53
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S64x512, .f32⟩
  | .hbm, ⟨2, _⟩ => ⟨S64x512, .f32⟩
  | .hbm, ⟨3, _⟩ => ⟨S64, .f32⟩
  | .hbm, ⟨4, _⟩ => ⟨S64x32x2048, .f32⟩
  | .hbm, ⟨5, _⟩ => ⟨S32x64x2048, .f32⟩
  | .hbm, ⟨6, _⟩ => ⟨S1x64x1, .f32⟩
  | .hbm, ⟨7, _⟩ => ⟨S32x64x2048, .f32⟩
  | .hbm, ⟨8, _⟩ => ⟨S32x64x2048, .f32⟩
  | .hbm, ⟨9, _⟩ => ⟨S_, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S32x1x2048, .f32⟩
  | .hbm, ⟨15, _⟩ => ⟨S32x64x2048, .f32⟩
  | .hbm, ⟨16, _⟩ => ⟨S32x64x2048, .f32⟩
  | .hbm, ⟨17, _⟩ => ⟨S32x64x2048, .f32⟩
  | .hbm, ⟨18, _⟩ => ⟨S_, .f32⟩
  | .hbm, ⟨19, _⟩ => ⟨S32x2048, .f32⟩
  | .hbm, ⟨20, _⟩ => ⟨S32x1x2048, .f32⟩
  | .hbm, ⟨21, _⟩ => ⟨S32x64x2048, .f32⟩
  | .hbm, ⟨22, _⟩ => ⟨S32x64x2048, .f32⟩
  | .hbm, ⟨23, _⟩ => ⟨S32x64x512, .f32⟩
  | .hbm, ⟨24, _⟩ => ⟨S_, .f32⟩
  | .hbm, ⟨25, _⟩ => ⟨S32x64, .f32⟩
  | .hbm, ⟨26, _⟩ => ⟨S32x64x1, .f32⟩
  | .hbm, ⟨27, _⟩ => ⟨S1x64x512, .f32⟩
  | .hbm, ⟨28, _⟩ => ⟨S32x64x512, .f32⟩
  | .hbm, ⟨29, _⟩ => ⟨S32x64x512, .f32⟩
  | .hbm, ⟨30, _⟩ => ⟨S32x64x512, .f32⟩
  | .hbm, ⟨31, _⟩ => ⟨S32x64x512, .f32⟩
  | .hbm, ⟨32, _⟩ => ⟨S32x64x512, .f32⟩
  | .hbm, ⟨33, _⟩ => ⟨S_, .f32⟩
  | .hbm, ⟨34, _⟩ => ⟨S32x64, .f32⟩
  | .hbm, ⟨35, _⟩ => ⟨S32x64x1, .f32⟩
  | .hbm, ⟨36, _⟩ => ⟨S32x64x1, .f32⟩
  | .hbm, ⟨37, _⟩ => ⟨S_, .f32⟩
  | .hbm, ⟨38, _⟩ => ⟨S32x64x1, .f32⟩
  | .hbm, ⟨39, _⟩ => ⟨S32x64x1, .f32⟩
  | .hbm, ⟨40, _⟩ => ⟨S32x64x512, .f32⟩
  | .hbm, ⟨41, _⟩ => ⟨S32x64x512, .f32⟩
  | .hbm, ⟨42, _⟩ => ⟨S32x32768, .f32⟩
  | .hbm, ⟨43, _⟩ => ⟨S32x32768, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S32x1, .f32⟩
  | .hbm, ⟨48, _⟩ => ⟨S_, .f32⟩
  | .hbm, ⟨49, _⟩ => ⟨S32x1, .f32⟩
  | .hbm, ⟨50, _⟩ => ⟨S32x1, .f32⟩
  | .hbm, ⟨51, _⟩ => ⟨S32x32768, .f32⟩
  | .hbm, ⟨52, _⟩ => ⟨S32x32768, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  transposes_S64x32x2048_S32x64x2048_1_0_2 : S64x32x2048.Transposes [1, 0, 2] S32x64x2048
  bcast_S64_S1x64x1_1 : S64.BroadcastsInDim S1x64x1 (![1] : Fin 1 → Fin S1x64x1.rank)
  bcast_S1x64x1_S32x64x2048_0_1_2 : S1x64x1.BroadcastsInDim S32x64x2048 (![0, 1, 2] : Fin 3 → Fin S32x64x2048.rank)
  reducesTo_S32x64x2048_S32x2048_d1 : S32x64x2048.ReducesTo [1] S32x2048
  h_S_ : 0 < S_.numel
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  bcast_S32x1x2048_S32x64x2048_0_1_2 : S32x1x2048.BroadcastsInDim S32x64x2048 (![0, 1, 2] : Fin 3 → Fin S32x64x2048.rank)
  reducesTo_S32x64x2048_S32x64_d2 : S32x64x2048.ReducesTo [2] S32x64
  bcast_S32x64_S32x64x1_0_1 : S32x64.BroadcastsInDim S32x64x1 (![0, 1] : Fin 2 → Fin S32x64x1.rank)
  bcast_S64x512_S1x64x512_1_2 : S64x512.BroadcastsInDim S1x64x512 (![1, 2] : Fin 2 → Fin S1x64x512.rank)
  bcast_S32x64x1_S32x64x512_0_1_2 : S32x64x1.BroadcastsInDim S32x64x512 (![0, 1, 2] : Fin 3 → Fin S32x64x512.rank)
  bcast_S1x64x512_S32x64x512_0_1_2 : S1x64x512.BroadcastsInDim S32x64x512 (![0, 1, 2] : Fin 3 → Fin S32x64x512.rank)
  reducesTo_S32x64x512_S32x64_d2 : S32x64x512.ReducesTo [2] S32x64
  bcast_S_S32x64x1 : S_.BroadcastsInDim S32x64x1 (![] : Fin 0 → Fin S32x64x1.rank)
  shapeCasts_S32x64x512_S32x32768 : S32x64x512.ShapeCasts S32x32768
  reducesTo_S32x32768_S32_d1 : S32x32768.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32768_0_1 : S32x1.BroadcastsInDim S32x32768 (![0, 1] : Fin 2 → Fin S32x32768.rank)
  dot_S64x512_S32x2048x512_S64x32x2048_1_2_0_01_n_n_wf : DotDims.WF S64x512 S32x2048x512 S64x32x2048 [1] [2] [0] [0, 1] [] []
  dot_S32x64x2048_S32x2048x512_S32x64x512_2_1_1_2_0_0_wf : DotDims.WF S32x64x2048 S32x2048x512 S32x64x512 [2] [1] [1] [2] [0] [0]

variable [Facts₀]

def dot_S64x512_S32x2048x512_S64x32x2048_1_2_0_01_n_n : DotDims S64x512 S32x2048x512 S64x32x2048 where
  lhsContracting := [1]
  rhsContracting := [2]
  lhsNonContracting := [0]
  rhsNonContracting := [0, 1]
  lhsBatch := []
  rhsBatch := []
  wf := dot_S64x512_S32x2048x512_S64x32x2048_1_2_0_01_n_n_wf
def dot_S32x64x2048_S32x2048x512_S32x64x512_2_1_1_2_0_0 : DotDims S32x64x2048 S32x2048x512 S32x64x512 where
  lhsContracting := [2]
  rhsContracting := [1]
  lhsNonContracting := [1]
  rhsNonContracting := [2]
  lhsBatch := [0]
  rhsBatch := [0]
  wf := dot_S32x64x2048_S32x2048x512_S32x64x512_2_1_1_2_0_0_wf

class Facts : Prop extends Facts₀ where

variable [Facts]
-- ==== Proof.Spec.lean ====
/-
  The descriptor both programs compute, written once over the extended reals.

  For one batch entry let `X t d` be the frame features, `W k d` and `B k` the weights and biases of the assignment
  scores, `C k d` the cluster centres. The scores are `X · Wᵀ + B`; each frame's scores become shares by the usual
  shifted exponential quotient over the clusters (the shift is the largest score, taken from `-∞`); the leftover of
  cluster `k` is the share-weighted sum of the frames minus the summed shares times the centre; each leftover row is
  divided by its Euclidean length, floored at a small constant; and the whole table is divided by its own Euclidean
  length, floored the same way. The two constants are kept as the words the programs print.
-/
import Idealize.ShloMosaic.PureOps.Ideal

noncomputable section

namespace Cert.Descriptor

open Idealize.ShloMosaic

variable {T D K : ℕ}

/-- Minus infinity, by its word. -/
abbrev bottom : EReal := Ideal.ofBits .f32 0xFF800000#32
/-- The floor under a length before it divides, by its word. -/
abbrev floor : EReal := Ideal.ofBits .f32 0x2B8CBCCC#32

/-- The largest of a frame's scores, taken from minus infinity (and once more against it, as both programs do). -/
def top (f : Fin K → EReal) : EReal := max bottom (Finset.univ.fold max bottom f)

/-- A frame's share for cluster `k`: the shifted exponential over the sum of the shifted exponentials. -/
def share (f : Fin K → EReal) (k : Fin K) : EReal :=
  Ideal.div (Ideal.exp (f k - top f)) (∑ k', Ideal.exp (f k' - top f))

/-- The assignment score of frame `t` for cluster `k`. -/
def score (X : Fin T → Fin D → EReal) (W : Fin K → Fin D → EReal) (B : Fin K → EReal) (t : Fin T) (k : Fin K) : EReal :=
  (∑ d, X t d * W k d) + B k

/-- The leftover of cluster `k` along feature `d`. -/
def leftover (A : Fin T → Fin K → EReal) (X : Fin T → Fin D → EReal) (C : Fin K → Fin D → EReal) (k : Fin K) (d : Fin D) :
    EReal :=
  (∑ t, A t k * X t d) - (∑ t, A t k) * C k d

/-- A row divided by its floored Euclidean length. -/
def rowUnit (R : Fin K → Fin D → EReal) (k : Fin K) (d : Fin D) : EReal :=
  Ideal.div (R k d) (max (Ideal.sqrt (∑ d', R k d' * R k d')) floor)

/-- A table divided by its floored Euclidean length, the squares summed row by row. -/
def allUnit (N : Fin K → Fin D → EReal) (k : Fin K) (d : Fin D) : EReal :=
  Ideal.div (N k d) (max (Ideal.sqrt (∑ k', ∑ d', N k' d' * N k' d')) floor)

/-- The descriptor of one batch entry. -/
def descriptor (X : Fin T → Fin D → EReal) (W : Fin K → Fin D → EReal) (B : Fin K → EReal) (C : Fin K → Fin D → EReal) :
    Fin K → Fin D → EReal :=
  allUnit (rowUnit (leftover (fun t k => share (score X W B t) k) X C))

end Cert.Descriptor

end
-- ==== Proof.Layout.lean ====
/-
  Small readings at an index, for any sizes: a vector made a column and spread over the columns of a matrix; a one-entry
  matrix spread over a matrix; and the row and column reductions of a matrix (a sum, or a largest element from a given
  start) as sums and folds over the reduced coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Layout

open Idealize.ShloMosaic Idealize.ShloMosaic.ValueIdx

variable {α : Type} {a b : ℕ}

/-- An `[a]` vector cast to an `[a, 1]` column reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` columns reads, at `(i, j)`, the column at `i`. -/
theorem broadcastTo_a1_ab_apply (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector made a column and spread over `b` columns reads, at `(i, j)`, the vector at `i`. -/
theorem column_spread_apply (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) := by
  rw [broadcastTo_a1_ab_apply, shapeCast_a_a1_apply]

/-- A `[1, 1]` matrix spread over an `[a, b]` matrix reads its one entry everywhere. -/
theorem broadcastTo_11_ab_apply (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-- Reducing the columns away: the index over row `i` with column `k` put back is `(i, k)`. -/
theorem lift_cols (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

/-- Reducing the rows away: the index over column `j` with row `k` put back is `(k, j)`. -/
theorem lift_rows (h : (⟨2, ![a, b]⟩ : Shape).Reduces [0] ⟨1, ![b]⟩) (j : Fin b) (k : Fin a) :
    h.lift (ix1 j) k = ix2 k j :=
  funext fun c => Fin.ext (by match c with | ⟨0, _⟩ => rfl | ⟨1, _⟩ => rfl)

/-! The reductions are read with their start word's side condition spelt as the printed programs carry it: an equation
between the word and itself. -/

/-- A row sum of a matrix, at row `i`. -/
theorem rowSum_apply (L : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ L 0x00000000#32 h hφ hacc (ix1 i) = ∑ k : Fin b, L (ix2 i k) :=
  (Ideal.multiReduction_add_single L 0x00000000#32 h hφ hacc (ix1 i)).trans
    (Finset.sum_congr rfl fun k _ => congrArg L (lift_cols h i k))

/-- A column sum of a matrix, at column `j`. -/
theorem colSum_apply (L : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ L 0x00000000#32 h hφ hacc (ix1 j) = ∑ k : Fin a, L (ix2 k j) :=
  (Ideal.multiReduction_add_single L 0x00000000#32 h hφ hacc (ix1 j)).trans
    (Finset.sum_congr rfl fun k _ => congrArg L (lift_rows h j k))

/-- A row's largest element from minus infinity, at row `i`. -/
theorem rowMax_apply (L : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ L 0xFF800000#32 h hφ hacc (ix1 i)
      = (Finset.univ : Finset (Fin b)).fold max (Ideal.ofBits .f32 0xFF800000#32) (fun k => L (ix2 i k)) :=
  (Ideal.multiReduction_maximumf_single L 0xFF800000#32 h hφ hacc (ix1 i)).trans
    (congrArg (Finset.fold max (Ideal.ofBits .f32 0xFF800000#32) · Finset.univ) (funext fun k => congrArg L (lift_cols h i k)))

end Cert.Layout

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.KernelBody.lean ====
/-
  What the kernel's body stores for one batch entry, read at an index over the extended reals.

  The body is cut where its mathematics cuts: the scores (a product with the transposed weights plus the bias row),
  the shares (the shifted exponential quotient along a row), the residuals (a product contracted over the frames minus
  the column sums times the centres), the rows made unit, the rows' squared lengths, and the whole table made unit.
  Each piece is read at an index as the corresponding function of `Cert.Descriptor`; narrowing to the short float
  format is the identity here, and both products are plain sums over the contracted coordinate.
-/
import proofs.«180768_j65575560675841_1_alg».proof.Proof.Gen.KernelIdeal.Skeleton
import proofs.«180768_j65575560675841_1_alg».proof.Proof.Spec
import proofs.«180768_j65575560675841_1_alg».proof.Proof.Layout
import proofs.«180768_j65575560675841_1_alg».proof.Proof.LibAffineRows

noncomputable section

namespace Cert.KernelIdeal.Body

open Idealize.ShloMosaic Idealize.ShloMosaic.ValueIdx Cert.KernelIdeal Cert.KernelIdeal.Gen Cert.Descriptor Cert.Layout

/-! ## The two products' index bookkeeping -/

theorem sc_l0 (i : S2048x64.Idx) (q : dot_S2048x512_S512x64_S2048x64_1_0_0_1_n_n.contr.Idx) : (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem sc_l1 (i : S2048x64.Idx) (q : dot_S2048x512_S512x64_S2048x64_1_0_0_1_n_n.contr.Idx) : (dot_S2048x512_S512x64_S2048x64_1_0_0_1_n_n.lhsIdx i q 1).val = (q ⟨0, by decide⟩).val :=
  dot_S2048x512_S512x64_S2048x64_1_0_0_1_n_n.lhsIdx_val_of_single rfl i q
theorem sc_r0 (i : S2048x64.Idx) (q : dot_S2048x512_S512x64_S2048x64_1_0_0_1_n_n.contr.Idx) : (dot_S2048x512_S512x64_S2048x64_1_0_0_1_n_n.rhsIdx i q 0).val = (q ⟨0, by decide⟩).val :=
  dot_S2048x512_S512x64_S2048x64_1_0_0_1_n_n.rhsIdx_val_of_single rfl i q
theorem sc_r1 (i : S2048x64.Idx) (q : dot_S2048x512_S512x64_S2048x64_1_0_0_1_n_n.contr.Idx) : (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- The scores' product is the plain product of a `[2048, 512]` by a `[512, 64]` matrix. -/
theorem scoreDot : Cert.Lib.PlainDot dot_S2048x512_S512x64_S2048x64_1_0_0_1_n_n := ⟨rfl, rfl, sc_l0, sc_l1, sc_r0, sc_r1⟩

theorem ag_l0 (i : S64x512.Idx) (q : dot_S2048x64_S2048x512_S64x512_0_0_1_1_n_n.contr.Idx) : (dot_S2048x64_S2048x512_S64x512_0_0_1_1_n_n.lhsIdx i q 0).val = (q ⟨0, by decide⟩).val :=
  dot_S2048x64_S2048x512_S64x512_0_0_1_1_n_n.lhsIdx_val_of_single rfl i q
theorem ag_l1 (i : S64x512.Idx) (q : dot_S2048x64_S2048x512_S64x512_0_0_1_1_n_n.contr.Idx) : (dot_S2048x64_S2048x512_S64x512_0_0_1_1_n_n.lhsIdx i q 1).val = (i 0).val := by
  unfold DotDims.lhsIdx
  rw [dif_neg (show ¬(1 : Fin S2048x64.rank) ∈ dot_S2048x64_S2048x512_S64x512_0_0_1_1_n_n.lhsBatch by decide), dif_pos (show (1 : Fin S2048x64.rank) ∈ dot_S2048x64_S2048x512_S64x512_0_0_1_1_n_n.lhsNonContracting by decide)]
  rfl
theorem ag_r0 (i : S64x512.Idx) (q : dot_S2048x64_S2048x512_S64x512_0_0_1_1_n_n.contr.Idx) : (dot_S2048x64_S2048x512_S64x512_0_0_1_1_n_n.rhsIdx i q 0).val = (q ⟨0, by decide⟩).val :=
  dot_S2048x64_S2048x512_S64x512_0_0_1_1_n_n.rhsIdx_val_of_single rfl i q
theorem ag_r1 (i : S64x512.Idx) (q : dot_S2048x64_S2048x512_S64x512_0_0_1_1_n_n.contr.Idx) : (dot_S2048x64_S2048x512_S64x512_0_0_1_1_n_n.rhsIdx i q 1).val = (i 1).val := by
  unfold DotDims.rhsIdx
  rw [dif_neg (show ¬(1 : Fin S2048x512.rank) ∈ dot_S2048x64_S2048x512_S64x512_0_0_1_1_n_n.rhsBatch by decide), dif_pos (show (1 : Fin S2048x512.rank) ∈ dot_S2048x64_S2048x512_S64x512_0_0_1_1_n_n.rhsNonContracting by decide)]
  rfl

/-- The product contracted over the frames, at cluster `k` and feature `d`: the sum over the frames. -/
theorem weighted_apply (A : FVec Ideal S2048x64 .f32) (Y : FVec Ideal S2048x512 .f32) (k : Fin 64) (d : Fin 512) :
    matmul dot_S2048x64_S2048x512_S64x512_0_0_1_1_n_n none (truncf .bf16 A bitsLt_bf16_f32) (truncf .bf16 Y bitsLt_bf16_f32) (constant S64x512 .f32 0x00000000#32) (ix2 k d)
      = ∑ t : Fin 2048, A (ix2 t k) * Y (ix2 t d) := by
  simp only [matmul]
  rw [Ideal.matmul_constant_zero_apply, ← Equiv.sum_comp (contrEquiv1 dot_S2048x64_S2048x512_S64x512_0_0_1_1_n_n 2048 rfl rfl).symm]
  refine Finset.sum_congr rfl fun t _ => ?_
  have ht := contrEquiv1_symm_val dot_S2048x64_S2048x512_S64x512_0_0_1_1_n_n 2048 rfl rfl t
  have el : dot_S2048x64_S2048x512_S64x512_0_0_1_1_n_n.lhsIdx (ix2 k d) ((contrEquiv1 dot_S2048x64_S2048x512_S64x512_0_0_1_1_n_n 2048 rfl rfl).symm t) = ix2 t k := funext fun a => Fin.ext (by
    match a with
    | ⟨0, _⟩ => exact (ag_l0 _ _).trans ht
    | ⟨1, _⟩ => exact ag_l1 _ _)
  have er : dot_S2048x64_S2048x512_S64x512_0_0_1_1_n_n.rhsIdx (ix2 k d) ((contrEquiv1 dot_S2048x64_S2048x512_S64x512_0_0_1_1_n_n 2048 rfl rfl).symm t) = ix2 t d := funext fun a => Fin.ext (by
    match a with
    | ⟨0, _⟩ => exact (ag_r0 _ _).trans ht
    | ⟨1, _⟩ => exact ag_r1 _ _)
  rw [el, er]
  rfl

/-! ## The loaded blocks as tables -/

abbrev frames (v0 : Vec Ideal S1x2048x512 .f32) : Fin 2048 → Fin 512 → EReal := fun t d => v0 (ix3 (0 : Fin 1) t d)
abbrev weights (v2 : Vec Ideal S512x64 .f32) : Fin 64 → Fin 512 → EReal := fun k d => v2 (ix2 d k)
abbrev biases (v4 : Vec Ideal S1x64 .f32) : Fin 64 → EReal := fun k => v4 (ix2 (0 : Fin 1) k)
abbrev centres (v6 : Vec Ideal S64x512 .f32) : Fin 64 → Fin 512 → EReal := fun k d => v6 (ix2 k d)

/-! ## The pieces of the body -/

/-- The scores of every frame for every cluster. -/
def scores (v0 : Vec Ideal S1x2048x512 .f32) (v2 : Vec Ideal S512x64 .f32) (v4 : Vec Ideal S1x64 .f32) : FVec Ideal S2048x64 .f32 :=
  addf (matmul dot_S2048x512_S512x64_S2048x64_1_0_0_1_n_n none
      (truncf .bf16 (shapeCast S2048x512 v0 shapeCasts_S1x2048x512_S2048x512 : FVec Ideal S2048x512 .f32) bitsLt_bf16_f32)
      (truncf .bf16 (shapeCast S512x64 v2 shapeCasts_S512x64_S512x64 : FVec Ideal S512x64 .f32) bitsLt_bf16_f32)
      (constant S2048x64 .f32 0x00000000#32))
    (broadcastTo S2048x64 (shapeCast S1x64 v4 shapeCasts_S1x64_S1x64 : FVec Ideal S1x64 .f32) broadcasts_S1x64_S2048x64)

theorem scores_apply (v0 : Vec Ideal S1x2048x512 .f32) (v2 : Vec Ideal S512x64 .f32) (v4 : Vec Ideal S1x64 .f32)
    (t : Fin 2048) (k : Fin 64) :
    scores v0 v2 v4 (ix2 t k) = score (frames v0) (weights v2) (biases v4) t k := by
  unfold scores score
  rw [addf_apply, Cert.Lib.matmul_zero_apply scoreDot, broadcastTo_1b_ab_apply]
  refine congrArg₂ (fun a b : EReal => a + b) (Finset.sum_congr rfl fun d _ => ?_) ?_
  · rw [shapeCast_1ab_ab_apply, shapeCast_self]
  · rw [shapeCast_self]

/-- The exponentials of the scores shifted by their row's largest. -/
def shifted (L : FVec Ideal S2048x64 .f32) : FVec Ideal S2048x64 .f32 :=
  exp (subf L (broadcastTo S2048x64 (shapeCast S2048x1
    (maximumf (broadcast S2048 (Scalar.ofBits .f32 0xFF800000#32 : Ideal .f32))
      (multiReduction .maximumf [1] S2048 L 0xFF800000#32 reduces_S2048x64_S2048 (.inl rfl) rfl))
    shapeCasts_S2048_S2048x1) broadcasts_S2048x1_S2048x64))

theorem shifted_apply (L : FVec Ideal S2048x64 .f32) (t : Fin 2048) (k : Fin 64) :
    shifted L (ix2 t k) = Ideal.exp (L (ix2 t k) - top (fun k' => L (ix2 t k'))) := by
  unfold shifted top
  show Ideal.exp (L (ix2 t k) - broadcastTo S2048x64 (shapeCast S2048x1 _ _) _ (ix2 t k)) = _
  rw [column_spread_apply, maximumf_apply, broadcast_apply, rowMax_apply]
  rfl

/-- The shares: each shifted exponential over its row's sum. -/
def shares (L : FVec Ideal S2048x64 .f32) : FVec Ideal S2048x64 .f32 :=
  divf (shifted L) (broadcastTo S2048x64 (shapeCast S2048x1
    (multiReduction .add [1] S2048 (shifted L) 0x00000000#32 reduces_S2048x64_S2048 (.inl rfl) rfl)
    shapeCasts_S2048_S2048x1) broadcasts_S2048x1_S2048x64)

theorem shares_apply (L : FVec Ideal S2048x64 .f32) (t : Fin 2048) (k : Fin 64) :
    shares L (ix2 t k) = share (fun k' => L (ix2 t k')) k := by
  unfold shares share
  rw [divf_apply, column_spread_apply, rowSum_apply, shifted_apply]
  exact congrArg (Ideal.div _) (Finset.sum_congr rfl fun k' _ => shifted_apply L t k')

/-- The residuals of every cluster along every feature. -/
def residuals (A : FVec Ideal S2048x64 .f32) (v0 : Vec Ideal S1x2048x512 .f32) (v6 : Vec Ideal S64x512 .f32) : FVec Ideal S64x512 .f32 :=
  subf (matmul dot_S2048x64_S2048x512_S64x512_0_0_1_1_n_n none (truncf .bf16 A bitsLt_bf16_f32)
      (truncf .bf16 (shapeCast S2048x512 v0 shapeCasts_S1x2048x512_S2048x512 : FVec Ideal S2048x512 .f32) bitsLt_bf16_f32)
      (constant S64x512 .f32 0x00000000#32))
    (mulf (broadcastTo S64x512 (shapeCast S64x1
      (multiReduction .add [0] S64 A 0x00000000#32 reduces_S2048x64_S64 (.inl rfl) rfl) shapeCasts_S64_S64x1) broadcasts_S64x1_S64x512) v6)

theorem residuals_apply (A : FVec Ideal S2048x64 .f32) (v0 : Vec Ideal S1x2048x512 .f32) (v6 : Vec Ideal S64x512 .f32)
    (k : Fin 64) (d : Fin 512) :
    residuals A v0 v6 (ix2 k d) = leftover (fun t k => A (ix2 t k)) (frames v0) (centres v6) k d := by
  unfold residuals leftover
  rw [subf_apply, weighted_apply, mulf_apply, column_spread_apply, colSum_apply]
  refine congrArg₂ (fun a b : EReal => a - b) (Finset.sum_congr rfl fun t _ => ?_) rfl
  rw [shapeCast_1ab_ab_apply]

/-- The leftover rows made unit. -/
def rowUnits (R : FVec Ideal S64x512 .f32) : FVec Ideal S64x512 .f32 :=
  divf R (broadcastTo S64x512 (maximumf
    (sqrt (shapeCast S64x1 (multiReduction .add [1] S64 (mulf R R) 0x00000000#32 reduces_S64x512_S64 (.inl rfl) rfl) shapeCasts_S64_S64x1 : FVec Ideal S64x1 .f32))
    (broadcast S64x1 (Scalar.ofBits .f32 0x2B8CBCCC#32 : Ideal .f32))) broadcasts_S64x1_S64x512)

theorem rowUnits_apply (R : FVec Ideal S64x512 .f32) (k : Fin 64) (d : Fin 512) :
    rowUnits R (ix2 k d) = rowUnit (fun k d => R (ix2 k d)) k d := by
  unfold rowUnits rowUnit
  rw [divf_apply, broadcastTo_a1_ab_apply, maximumf_apply, broadcast_apply]
  show Ideal.div _ (max (Ideal.sqrt (shapeCast S64x1 _ _ (ix2 k (0 : Fin 1)))) _) = _
  rw [shapeCast_a_a1_apply, rowSum_apply]
  rfl

/-- The squared lengths of the unit rows, as a column. -/
def rowSquares (N : FVec Ideal S64x512 .f32) : FVec Ideal S64x1 .f32 :=
  shapeCast S64x1 (multiReduction .add [1] S64 (mulf N N) 0x00000000#32 reduces_S64x512_S64 (.inl rfl) rfl) shapeCasts_S64_S64x1

theorem rowSquares_apply (N : FVec Ideal S64x512 .f32) (k : Fin 64) (u : Fin 1) :
    rowSquares N (ix2 k u) = ∑ d : Fin 512, N (ix2 k d) * N (ix2 k d) := by
  unfold rowSquares
  rw [shapeCast_a_a1_apply, rowSum_apply]
  rfl

/-- The table made unit, given its rows' squared lengths, as the block that is stored. -/
def wholeUnits (N : FVec Ideal S64x512 .f32) (Q : FVec Ideal S64x1 .f32) : FVec Ideal S1x64x512 .f32 :=
  shapeCast S1x64x512 (divf N (broadcastTo S64x512 (maximumf
    (sqrt (shapeCast S1x1 (multiReduction .add [0] S1 Q 0x00000000#32 reduces_S64x1_S1 (.inl rfl) rfl) shapeCasts_S1_S1x1 : FVec Ideal S1x1 .f32))
    (broadcast S1x1 (Scalar.ofBits .f32 0x2B8CBCCC#32 : Ideal .f32))) broadcasts_S1x1_S64x512)) shapeCasts_S64x512_S1x64x512

theorem wholeUnits_apply (N : FVec Ideal S64x512 .f32) (Q : FVec Ideal S64x1 .f32) (u : Fin 1) (k : Fin 64) (d : Fin 512) :
    wholeUnits N Q (ix3 u k d)
      = Ideal.div (N (ix2 k d)) (max (Ideal.sqrt (∑ k' : Fin 64, Q (ix2 k' (0 : Fin 1)))) floor) := by
  unfold wholeUnits
  rw [shapeCast_ab_1ab_apply, divf_apply, broadcastTo_11_ab_apply, maximumf_apply, broadcast_apply]
  show Ideal.div _ (max (Ideal.sqrt (shapeCast S1x1 _ _ (ix2 (0 : Fin 1) (0 : Fin 1)))) _) = _
  rw [shapeCast_a_a1_apply, colSum_apply]
  rfl

/-! ## The body's payloads are these pieces, composed -/

theorem pay2_eq (v0 : Vec Ideal S1x2048x512 .f32) (v2 : Vec Ideal S512x64 .f32) (v4 : Vec Ideal S1x64 .f32) (v6 : Vec Ideal S64x512 .f32) :
    k0_pay2 (F := Ideal) v0 v2 v4 v6 = rowUnits (residuals (shares (scores v0 v2 v4)) v0 v6) := rfl

theorem pay3_eq (v0 : Vec Ideal S1x2048x512 .f32) (v2 : Vec Ideal S512x64 .f32) (v4 : Vec Ideal S1x64 .f32) (v6 : Vec Ideal S64x512 .f32) :
    k0_pay3 (F := Ideal) v0 v2 v4 v6 = rowSquares (k0_pay2 (F := Ideal) v0 v2 v4 v6) := rfl

theorem pay1_eq (N : FVec Ideal S64x512 .f32) (Q : FVec Ideal S64x1 .f32) : k0_pay1 (F := Ideal) N Q = wholeUnits N Q := rfl

/-- The unit rows, at an index. -/
theorem pay2_apply (v0 : Vec Ideal S1x2048x512 .f32) (v2 : Vec Ideal S512x64 .f32) (v4 : Vec Ideal S1x64 .f32) (v6 : Vec Ideal S64x512 .f32)
    (k : Fin 64) (d : Fin 512) :
    k0_pay2 (F := Ideal) v0 v2 v4 v6 (ix2 k d)
      = rowUnit (leftover (fun t k => share (score (frames v0) (weights v2) (biases v4) t) k) (frames v0) (centres v6)) k d := by
  rw [pay2_eq, rowUnits_apply]
  refine congrArg (fun R => rowUnit R k d) (funext fun k => funext fun d => ?_)
  rw [residuals_apply]
  refine congrArg (fun A => leftover A (frames v0) (centres v6) k d) (funext fun t => funext fun k => ?_)
  rw [shares_apply]
  exact congrArg (fun f => share f k) (funext fun k' => scores_apply v0 v2 v4 t k')

/-- WHAT THE BODY STORES, at an index of the stored block: the descriptor of the loaded blocks. -/
theorem stored_apply (v0 : Vec Ideal S1x2048x512 .f32) (v2 : Vec Ideal S512x64 .f32) (v4 : Vec Ideal S1x64 .f32) (v6 : Vec Ideal S64x512 .f32)
    (u : Fin 1) (k : Fin 64) (d : Fin 512) :
    k0_pay1 (F := Ideal) (k0_pay2 v0 v2 v4 v6) (k0_pay3 v0 v2 v4 v6) (ix3 u k d)
      = descriptor (frames v0) (weights v2) (biases v4) (centres v6) k d := by
  rw [pay1_eq, pay3_eq, wholeUnits_apply]
  unfold descriptor allUnit
  simp only [rowSquares_apply, pay2_apply]

end Cert.KernelIdeal.Body

end
-- ==== Proof.KernelRun.lean ====
/-
  The kernel program's result, read off its run.

  Grid point `t` works on batch entry `t`: its frames block is rows `(t, ·, ·)` of the first argument, the three other
  blocks are the whole transposed weights, bias row and centres (the transpose and the row are made on the host before the
  region), and it writes back block `(t, ·, ·)` of the result array. So the result array ends holding, at `(b, k, d)`,
  the descriptor of batch entry `b` at `(k, d)`; the host's last line flattens `(k, d)` to `k · 512 + d`.
-/
import proofs.«180768_j65575560675841_1_alg».proof.Proof.Gen.KernelIdeal.Frame
import proofs.«180768_j65575560675841_1_alg».proof.Proof.KernelBody
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Descriptor Cert.Layout

variable (m : (ℓ : Loc nD τ sig) → Buf (Elt Ideal) ℓ) (ρ : Dev nD → PrngReg)

/-! ## The arguments as tables, and the table the result array ends holding -/

abbrev argX (c : Dev nD) : S32x2048x512.Idx → EReal := m ((c : Thread nD τ).loc main_arg0)
abbrev argC (c : Dev nD) : S64x512.Idx → EReal := m ((c : Thread nD τ).loc main_arg1)
abbrev argW (c : Dev nD) : S64x512.Idx → EReal := m ((c : Thread nD τ).loc main_arg2)
abbrev argB (c : Dev nD) : S64.Idx → EReal := m ((c : Thread nD τ).loc main_arg3)

/-- The descriptor of batch entry `b` of the arguments, at cluster `k` and feature `d`. -/
def tableAt (c : Dev nD) (b : Fin 32) (k : Fin 64) (d : Fin 512) : EReal :=
  descriptor (fun t d => argX m c (ix3 b t d)) (fun k d => argW m c (ix2 k d)) (fun k => argB m c (ix1 k))
    (fun k d => argC m c (ix2 k d)) k d

/-- The same as an array of the result's shape before it is flattened. -/
def table (c : Dev nD) : S32x64x512.Idx → EReal := fun i =>
  tableAt m c ⟨(i 0).val, (i 0).isLt⟩ ⟨(i 1).val, (i 1).isLt⟩ ⟨(i 2).val, (i 2).isLt⟩

/-! ## The blocks of a grid point -/

/-- The printed index maps over the grid: the frames and result blocks move with the point, the others stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The batch entry a grid point works on. -/
abbrev entry (t : Fin cfg0.N) : Fin 32 := ⟨t.val, by have h : t.val < grid0.N := t.isLt; rw [N_0] at h; exact h⟩

abbrev xblk (c : Dev nD) (t : Fin cfg0.N) : Vec Ideal S1x2048x512 .f32 := iblk m c 0 t
abbrev wblk (c : Dev nD) (t : Fin cfg0.N) : Vec Ideal S512x64 .f32 := iblk m c 1 t
abbrev bblk (c : Dev nD) (t : Fin cfg0.N) : Vec Ideal S1x64 .f32 := iblk m c 2 t
abbrev cblk (c : Dev nD) (t : Fin cfg0.N) : Vec Ideal S64x512 .f32 := iblk m c 3 t

/-- The transposed weights the region finds. -/
theorem V_weights (c : Dev nD) :
    (V m c main_v0 : S512x64.Idx → EReal) = transpose S512x64 [1, 0] (argW m c) transposes_S64x512_S512x64_1_0 := by
  show StableHlo.after hostOps0 (fun b => m (c, b)) (Proc.devRef .tc main_v0) = _
  after_results

/-- The bias row the region finds. -/
theorem V_biases (c : Dev nD) :
    (V m c main_v1 : S1x64.Idx → EReal) = shapeCast S1x64 (argB m c) shapeCasts_S64_S1x64 := by
  show StableHlo.after hostOps0 (fun b => m (c, b)) (Proc.devRef .tc main_v1) = _
  after_results
  try rfl

theorem xblk_apply (c : Dev nD) (t : Fin cfg0.N) (u : Fin 1) (t' : Fin 2048) (d : Fin 512) :
    xblk m c t (ix3 u t' d) = argX m c (ix3 (entry t) t' d) := by
  show V m c main_arg0 (((cfg0.win 0).blk t).view.emb (ix3 u t' d)) = _
  rw [V_main_arg0]
  refine congrArg (argX m c) (funext fun a => Fin.ext ?_)
  obtain ⟨e0, e1, e2, -⟩ := idx_facts t
  have hu : u.val = 0 := by omega
  match a with
  | ⟨0, _⟩ => show win0_0.index t (0 : Fin 3) * 1 + 1 * u.val = t.val; omega
  | ⟨1, _⟩ => show win0_0.index t (1 : Fin 3) * 2048 + 1 * t'.val = t'.val; omega
  | ⟨2, _⟩ => show win0_0.index t (2 : Fin 3) * 512 + 1 * d.val = d.val; omega

theorem wblk_apply (c : Dev nD) (t : Fin cfg0.N) (d : Fin 512) (k : Fin 64) :
    wblk m c t (ix2 d k) = argW m c (ix2 k d) := by
  show V m c main_v0 (((cfg0.win 1).blk t).view.emb (ix2 d k)) = _
  have hi : ((cfg0.win 1).blk t).view.emb (ix2 d k) = ix2 d k := by
    obtain ⟨-, -, -, e0, e1, -⟩ := idx_facts t
    refine funext fun a => Fin.ext ?_
    match a with
    | ⟨0, _⟩ => show win0_1.index t (0 : Fin 2) * 512 + 1 * d.val = d.val; omega
    | ⟨1, _⟩ => show win0_1.index t (1 : Fin 2) * 64 + 1 * k.val = k.val; omega
  rw [hi, V_weights, transpose_ix2_apply]

theorem bblk_apply (c : Dev nD) (t : Fin cfg0.N) (u : Fin 1) (k : Fin 64) :
    bblk m c t (ix2 u k) = argB m c (ix1 k) := by
  show V m c main_v1 (((cfg0.win 2).blk t).view.emb (ix2 u k)) = _
  have hi : ((cfg0.win 2).blk t).view.emb (ix2 u k) = ix2 u k := by
    obtain ⟨-, -, -, -, -, e0, e1, -⟩ := idx_facts t
    refine funext fun a => Fin.ext ?_
    match a with
    | ⟨0, _⟩ => show win0_2.index t (0 : Fin 2) * 1 + 1 * u.val = u.val; omega
    | ⟨1, _⟩ => show win0_2.index t (1 : Fin 2) * 64 + 1 * k.val = k.val; omega
  rw [hi, V_biases, shapeCast_a_1a_apply]

theorem cblk_apply (c : Dev nD) (t : Fin cfg0.N) (k : Fin 64) (d : Fin 512) :
    cblk m c t (ix2 k d) = argC m c (ix2 k d) := by
  show V m c main_arg1 (((cfg0.win 3).blk t).view.emb (ix2 k d)) = _
  rw [V_main_arg1]
  refine congrArg (argC m c) (funext fun a => Fin.ext ?_)
  obtain ⟨-, -, -, -, -, -, -, e0, e1, -⟩ := idx_facts t
  match a with
  | ⟨0, _⟩ => show win0_3.index t (0 : Fin 2) * 64 + 1 * k.val = k.val; omega
  | ⟨1, _⟩ => show win0_3.index t (1 : Fin 2) * 512 + 1 * d.val = d.val; omega

/-! ## What a point writes back, and the array after the run -/

theorem hz3 : (![0, 0, 0] : Fin 3 → Nat) = fun _ => 0 := funext fun a => by fin_cases a <;> rfl
theorem hz2 : (![0, 0] : Fin 2 → Nat) = fun _ => 0 := funext fun a => by fin_cases a <;> rfl

/-- What the body stores at point `t`, at an index of the block: the table at the batch entry of the point. -/
theorem stored_eq (c : Dev nD) (t : Fin cfg0.N) (y : S1x64x512.Idx) :
    k0_pay1 (F := Ideal) (k0_pay2 (xblk m c t) (wblk m c t) (bblk m c t) (cblk m c t)) (k0_pay3 (xblk m c t) (wblk m c t) (bblk m c t) (cblk m c t)) y
      = tableAt m c (entry t) ⟨(y 1).val, (y 1).isLt⟩ ⟨(y 2).val, (y 2).isLt⟩ := by
  obtain ⟨u, k, d, rfl⟩ : ∃ (u : Fin 1) (k : Fin 64) (d : Fin 512), y = ix3 u k d := ⟨y 0, y 1, y 2, eq_ix3 y⟩
  refine (Body.stored_apply (xblk m c t) (wblk m c t) (bblk m c t) (cblk m c t) u k d).trans ?_
  unfold tableAt
  refine congrArg (fun D : Fin 64 → Fin 512 → EReal => D k d) ?_
  have hX : Body.frames (xblk m c t) = fun t' d => argX m c (ix3 (entry t) t' d) :=
    funext fun t' => funext fun d => xblk_apply m c t 0 t' d
  have hW : Body.weights (wblk m c t) = fun k d => argW m c (ix2 k d) :=
    funext fun k => funext fun d => wblk_apply m c t d k
  have hB : Body.biases (bblk m c t) = fun k => argB m c (ix1 k) :=
    funext fun k => bblk_apply m c t 0 k
  have hC : Body.centres (cblk m c t) = fun k d => argC m c (ix2 k d) :=
    funext fun k => funext fun d => cblk_apply m c t k d
  rw [hX, hW, hB, hC]

/-- WHAT POINT `t` WRITES BACK is block `t` of the table. -/
theorem flushed_eq (c : Dev nD) (t : Fin cfg0.N) :
    (dats m 0 c).flushed 4 t = ((cfg0.win 4).blk t).view.read (Elt Ideal) (table m c) := by
  show (cfg0.win 4).cut (grid0.coords t) ((dats m 0 c).after 4 t) = _
  rw [after0_4]
  unfold out0_4
  rw [View.canon_unit_zero hz3]
  simp only [View.ld_unit_zero (S := S1x2048x512) hz3, View.ld_unit_zero (S := S512x64) hz2, View.ld_unit_zero (S := S1x64) hz2,
    View.ld_unit_zero (S := S64x512) hz2]
  funext j
  refine (stored_eq m c t j).trans ?_
  show _ = table m c (((cfg0.win 4).blk t).view.emb j)
  unfold table
  obtain ⟨-, -, -, -, -, -, -, -, -, e0, e1, e2⟩ := idx_facts t
  have hj0 : (j 0).val < 1 := (j 0).isLt
  have hj1 : (j 1).val < 64 := (j 1).isLt
  have hj2 : (j 2).val < 512 := (j 2).isLt
  have h0 : ((((cfg0.win 4).blk t).view.emb j) 0).val = t.val := by
    show win0_4.index t (0 : Fin 3) * 1 + 1 * (j 0).val = t.val; omega
  have h1 : ((((cfg0.win 4).blk t).view.emb j) 1).val = (j 1).val := by
    show win0_4.index t (1 : Fin 3) * 64 + 1 * (j 1).val = (j 1).val; omega
  have h2 : ((((cfg0.win 4).blk t).view.emb j) 2).val = (j 2).val := by
    show win0_4.index t (2 : Fin 3) * 512 + 1 * (j 2).val = (j 2).val; omega
  exact congr (congr (congrArg (tableAt m c) (Fin.ext h0.symm)) (Fin.ext h1.symm)) (Fin.ext h2.symm)

/-- An index of the result array is in point `t`'s block iff each coordinate is in the block's range on its axis. -/
theorem mem_blk (t : Fin cfg0.N) (i : S32x64x512.Idx) :
    i ∈ ((cfg0.win 4).blk t).view.set ↔ ∀ a : Fin 3, win0_4.index t a * S1x64x512.size a ≤ (i a).val ∧ (i a).val < win0_4.index t a * S1x64x512.size a + S1x64x512.size a := by
  show i ∈ ((View.whole main_v2).slice (win0_4.rect t)).set ↔ _
  rw [View.set_slice_whole, Rect.mem_set_unit]
  exact Iff.rfl

/-- THE RESULT ARRAY after the region is the table: the 32 blocks tile it. -/
theorem final (c : Dev nD) : (dats m 0 c).arrAt 4 cfg0.N = table m c :=
  (dats m 0 c).arrAt_eq_of_cover 4 (table m c) (fun t _ => flushed_eq m c t) fun i => by
    have hi0 : (i 0).val < 32 := (i 0).isLt
    have hi1 : (i 1).val < 64 := (i 1).isLt
    have hi2 : (i 2).val < 512 := (i 2).isLt
    have hN : (i 0).val < cfg0.N := by show (i 0).val < grid0.N; rw [N_0]; exact hi0
    obtain ⟨t, ht⟩ : ∃ t : Fin cfg0.N, t.val = (i 0).val := ⟨⟨(i 0).val, hN⟩, rfl⟩
    refine ⟨t, flush0_4 t, ?_⟩
    rw [mem_blk]
    obtain ⟨-, -, -, -, -, -, -, -, -, e0, e1, e2⟩ := idx_facts t
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 64 ≤ (i 1).val ∧ (i 1).val < win0_4.index t (1 : Fin 3) * 64 + 64; omega
    | ⟨2, _⟩ => show win0_4.index t (2 : Fin 3) * 512 ≤ (i 2).val ∧ (i 2).val < win0_4.index t (2 : Fin 3) * 512 + 512; omega

/-! ## The host's last line, and the run -/

/-- The flattened table: what the program returns. -/
def result (c : Dev nD) : S32x32768.Idx → EReal := fun i =>
  tableAt m c ⟨(i 0).val, (i 0).isLt⟩ ⟨(i 1).val / 512, by have h : (i 1).val < 32768 := (i 1).isLt; omega⟩
    ⟨(i 1).val % 512, Nat.mod_lt _ (by decide)⟩

/-- After the host's last line the returned buffer holds the flattened table. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  rw [(Pipeline.withArrays_arr spec0 launch0.win.arr_inj c _ _ 4).trans (final m c)]
  funext i
  obtain ⟨b, j, rfl⟩ : ∃ (b : Fin 32) (j : Fin 32768), i = ix2 b j := ⟨i 0, i 1, eq_ix2 i⟩
  refine (shapeCast_apply (table m c) shapeCasts_S32x64x512_S32x32768 (ix2 b j)
    (ix3 b ⟨j.val / 512, by have := j.isLt; omega⟩ ⟨j.val % 512, Nat.mod_lt _ (by decide)⟩) ?_).trans rfl
  rw [Shape.rowMajor_val_three, Shape.rowMajor_val_two]
  show (b.val * 64 + j.val / 512) * 512 + j.val % 512 = b.val * 32768 + j.val
  omega

/-- THE RUN, READ: the returned buffer at the flattened table, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefSide.lean ====
/-
  The plain program, stage by stage, read at an index over the extended reals as the same functions of
  `Cert.Descriptor`: the scores (its product has the weights on the left, so each term is commuted), the shares along
  the cluster axis, the leftovers, the unit rows, and, after the table is flattened, the unit table — whose squared length
  is one sum over the `64 · 512` flat positions, regrouped here into the sum over clusters of the sums over features.
-/
import proofs.«180768_j65575560675841_1_alg».proof.Proof.Gen.ReferenceIdeal.Read
import proofs.«180768_j65575560675841_1_alg».proof.Proof.Spec
import Idealize.ShloMosaic.Lib.ValueIdx
import Idealize.ShloMosaic.PureOps.Ideal.Laws
import Mathlib.Algebra.BigOperators.Fin

noncomputable section

namespace Cert.ReferenceIdeal.Stages

open Cert.ReferenceIdeal Cert.ReferenceIdeal.Gen Cert.ReferenceIdeal.Read Idealize.ShloMosaic Idealize.ShloMosaic.ValueIdx
open Cert.Descriptor

variable (x0 : (⟨S32x2048x512, .f32⟩ : BufTy).Contents (Elt Ideal)) (x1 x2 : (⟨S64x512, .f32⟩ : BufTy).Contents (Elt Ideal))
  (x3 : (⟨S64, .f32⟩ : BufTy).Contents (Elt Ideal))

/-! ## The arguments as tables -/

abbrev frames (b : Fin 32) : Fin 2048 → Fin 512 → EReal := fun t d => x0 (ix3 b t d)
abbrev weights : Fin 64 → Fin 512 → EReal := fun k d => x2 (ix2 k d)
abbrev biases : Fin 64 → EReal := fun k => x3 (ix1 k)
abbrev centres : Fin 64 → Fin 512 → EReal := fun k d => x1 (ix2 k d)

/-! ## Scores -/

theorem scores_apply (b : Fin 32) (k : Fin 64) (t : Fin 2048) :
    val_main_v4 (F := Ideal) x0 x2 x3 (ix3 b k t) = score (frames x0 b) (weights x2) (biases x3) t k := by
  rw [val_main_v4_apply, Ideal.addf_def, val_main_v1_apply, val_main_v0_apply, val_main_v3_apply, val_main_v2_apply]
  unfold score
  refine congrArg₂ (· + ·) (Finset.sum_congr rfl fun d _ => ?_) ?_
  · rw [mul_comm]
    exact congrArg₂ (· * ·)
      (congrArg x0 (funext fun a => match a with | ⟨0, _⟩ => rfl | ⟨1, _⟩ => rfl | ⟨2, _⟩ => rfl))
      (congrArg x2 (funext fun a => match a with | ⟨0, _⟩ => rfl | ⟨1, _⟩ => rfl))
  · exact congrArg x3 (funext fun a => match a with | ⟨0, _⟩ => rfl)

/-! ## Shares -/

theorem lift_cluster (h : S32x64x2048.Reduces [1] S32x2048) (b : Fin 32) (t : Fin 2048) (k : Fin 64) :
    h.lift (ix2 b t) k = ix3 b k t :=
  funext fun c => Fin.ext (by match c with | ⟨0, _⟩ => rfl | ⟨1, _⟩ => rfl | ⟨2, _⟩ => rfl)

/-- The largest score of frame `t`, as it is spread back over the clusters. -/
theorem tops_apply (b : Fin 32) (k : Fin 64) (t : Fin 2048) :
    val_main_v9 (F := Ideal) x0 x2 x3 (ix3 b k t) = top (fun k' => val_main_v4 (F := Ideal) x0 x2 x3 (ix3 b k' t)) := by
  have hj : idx_main_v8 (idx_main_v9 (ix3 b k t)) = ix2 b t :=
    funext fun a => match a with | ⟨0, _⟩ => rfl | ⟨1, _⟩ => rfl
  rw [val_main_v9_apply, val_main_v8_apply, hj, val_main_v7_apply, val_main_v6_apply, val_main_cst_0_apply]
  unfold val_main_v5 top
  rw [Host.reduce_eq_fold_single FloatOps.maximumf _ _ reducesTo_S32x64x2048_S32x2048_d1 (by decide) h_S_]
  have hf : (val_main_v4 (F := Ideal) x0 x2 x3 ∘ Shape.Reduces.lift (by decide : S32x64x2048.Reduces [1] S32x2048) (ix2 b t))
      = fun k' : Fin 64 => val_main_v4 (F := Ideal) x0 x2 x3 (ix3 b k' t) :=
    funext fun k' => congrArg (val_main_v4 (F := Ideal) x0 x2 x3) (lift_cluster _ b t k')
  rw [hf]
  rfl

/-- The shifted exponential. -/
theorem expo_apply (b : Fin 32) (k : Fin 64) (t : Fin 2048) :
    val_main_v11 (F := Ideal) x0 x2 x3 (ix3 b k t)
      = Ideal.exp (val_main_v4 (F := Ideal) x0 x2 x3 (ix3 b k t) - top (fun k' => val_main_v4 (F := Ideal) x0 x2 x3 (ix3 b k' t))) := by
  rw [val_main_v11_apply, val_main_v10_apply, tops_apply]
  rfl

theorem shares_apply (b : Fin 32) (k : Fin 64) (t : Fin 2048) :
    val_main_v15 (F := Ideal) x0 x2 x3 (ix3 b k t) = share (fun k' => val_main_v4 (F := Ideal) x0 x2 x3 (ix3 b k' t)) k := by
  have hj : idx_main_v13 (idx_main_v14 (ix3 b k t)) = ix2 b t :=
    funext fun a => match a with | ⟨0, _⟩ => rfl | ⟨1, _⟩ => rfl
  rw [val_main_v15_apply, Ideal.hostDivf_def, val_main_v14_apply, val_main_v13_apply, hj, val_main_v12_apply, val_main_cst_1_apply,
    expo_apply]
  unfold share
  rw [Ideal.ofBits_def, Ideal.ofBits_zero_f32, zero_add]
  refine congrArg (Ideal.div _) (Finset.sum_congr rfl fun k' _ => ?_)
  have hk : idx_main_v12 (ix2 b t) k' = ix3 b k' t :=
    funext fun a => match a with | ⟨0, _⟩ => rfl | ⟨1, _⟩ => rfl | ⟨2, _⟩ => rfl
  rw [hk, expo_apply]

/-! ## Leftovers -/

theorem leftovers_apply (b : Fin 32) (k : Fin 64) (d : Fin 512) :
    val_main_v23 (F := Ideal) x0 x1 x2 x3 (ix3 b k d)
      = leftover (fun t k => val_main_v15 (F := Ideal) x0 x2 x3 (ix3 b k t)) (frames x0 b) (centres x1) k d := by
  have h20 : idx_main_v18 (idx_main_v20 (ix3 b k d)) = ix2 b k :=
    funext fun a => match a with | ⟨0, _⟩ => rfl | ⟨1, _⟩ => rfl
  have h21 : idx_main_v19 (idx_main_v21 (ix3 b k d)) = ix2 k d :=
    funext fun a => match a with | ⟨0, _⟩ => rfl | ⟨1, _⟩ => rfl
  rw [val_main_v23_apply, Ideal.subf_def, val_main_v16_apply, val_main_v22_apply, Ideal.mulf_def, val_main_v20_apply, val_main_v18_apply, h20,
    val_main_v17_apply, val_main_cst_2_apply, val_main_v21_apply, val_main_v19_apply, h21]
  unfold leftover
  rw [Ideal.ofBits_def, Ideal.ofBits_zero_f32, zero_add]
  refine congrArg₂ (· - ·) (Finset.sum_congr rfl fun t _ => ?_) (congrArg (· * _) (Finset.sum_congr rfl fun t _ => ?_))
  · exact congrArg₂ (· * ·)
      (congrArg (val_main_v15 (F := Ideal) x0 x2 x3) (funext fun a => match a with | ⟨0, _⟩ => rfl | ⟨1, _⟩ => rfl | ⟨2, _⟩ => rfl))
      (congrArg x0 (funext fun a => match a with | ⟨0, _⟩ => rfl | ⟨1, _⟩ => rfl | ⟨2, _⟩ => rfl))
  · exact congrArg (val_main_v15 (F := Ideal) x0 x2 x3) (funext fun a => match a with | ⟨0, _⟩ => rfl | ⟨1, _⟩ => rfl | ⟨2, _⟩ => rfl)

/-! ## Unit rows -/

theorem rowUnits_apply (b : Fin 32) (k : Fin 64) (d : Fin 512) :
    val_main_v28 (F := Ideal) x0 x1 x2 x3 (ix3 b k d)
      = rowUnit (fun k d => val_main_v23 (F := Ideal) x0 x1 x2 x3 (ix3 b k d)) k d := by
  have h27 : idx_main_call0_v2 (idx_main_v27 (ix3 b k d)) = ix2 b k :=
    funext fun a => match a with | ⟨0, _⟩ => rfl | ⟨1, _⟩ => rfl
  rw [val_main_v28_apply, Ideal.hostDivf_def, val_main_v27_apply, val_main_v26_apply, Ideal.maximumf_def, val_main_v24_apply,
    Ideal.hostUnary_sqrt_def, val_main_call0_v2_apply, h27, val_main_call0_v1_apply, val_main_call0_cst_apply, val_main_v25_apply,
    val_main_cst_3_apply]
  unfold rowUnit
  rw [Ideal.ofBits_def, Ideal.ofBits_zero_f32, zero_add]
  refine congrArg (fun s => Ideal.div _ (max (Ideal.sqrt s) _)) (Finset.sum_congr rfl fun d' _ => ?_)
  have hk : idx_main_call0_v1 (ix2 b k) d' = ix3 b k d' :=
    funext fun a => match a with | ⟨0, _⟩ => rfl | ⟨1, _⟩ => rfl | ⟨2, _⟩ => rfl
  rw [val_main_call0_v0_apply, hk]
  rfl

/-! ## The flattened table made unit -/

/-- The flat position of feature `d` of cluster `k`. -/
abbrev flat (k : Fin 64) (d : Fin 512) : Fin 32768 := ⟨k.val * 512 + d.val, by have := k.isLt; have := d.isLt; omega⟩

/-- The flattened table at `(b, flat k d)` is the table at `(b, k, d)`. -/
theorem flatten_apply (b : Fin 32) (k : Fin 64) (d : Fin 512) :
    val_main_v29 (F := Ideal) x0 x1 x2 x3 (ix2 b (flat k d)) = val_main_v28 (F := Ideal) x0 x1 x2 x3 (ix3 b k d) := by
  rw [val_main_v29_apply]
  refine congrArg (val_main_v28 (F := Ideal) x0 x1 x2 x3) (funext fun a => Fin.ext ?_)
  have hb := b.isLt; have hk := k.isLt; have hd := d.isLt
  match a with
  | ⟨0, _⟩ => show (b.val * 32768 + (k.val * 512 + d.val)) / 32768 = b.val; omega
  | ⟨1, _⟩ => show (b.val * 32768 + (k.val * 512 + d.val)) / 512 % 64 = k.val; omega
  | ⟨2, _⟩ => show (b.val * 32768 + (k.val * 512 + d.val)) % 512 = d.val; omega

/-- A sum over the flat positions is the sum over clusters of the sums over features. -/
theorem sum_flat (g : Fin 32768 → EReal) : ∑ j : Fin 32768, g j = ∑ k : Fin 64, ∑ d : Fin 512, g (flat k d) := by
  rw [← Equiv.sum_comp (finProdFinEquiv : Fin 64 × Fin 512 ≃ Fin (64 * 512)) g, Fintype.sum_prod_type]
  refine Finset.sum_congr rfl fun k _ => Finset.sum_congr rfl fun d _ => congrArg g (Fin.ext ?_)
  show d.val + 512 * k.val = k.val * 512 + d.val
  omega

theorem wholeUnit_apply (b : Fin 32) (k : Fin 64) (d : Fin 512) :
    val_main_v34 (F := Ideal) x0 x1 x2 x3 (ix2 b (flat k d))
      = allUnit (fun k d => val_main_v28 (F := Ideal) x0 x1 x2 x3 (ix3 b k d)) k d := by
  have h33 : idx_main_call1_v2 (idx_main_v33 (ix2 b (flat k d))) = ix1 b :=
    funext fun a => match a with | ⟨0, _⟩ => rfl
  rw [val_main_v34_apply, Ideal.hostDivf_def, flatten_apply, val_main_v33_apply, val_main_v32_apply, Ideal.maximumf_def, val_main_v30_apply,
    Ideal.hostUnary_sqrt_def, val_main_call1_v2_apply, h33, val_main_call1_v1_apply, val_main_call1_cst_apply, val_main_v31_apply,
    val_main_cst_4_apply]
  unfold allUnit
  rw [Ideal.ofBits_def, Ideal.ofBits_zero_f32, zero_add, sum_flat]
  refine congrArg (fun s => Ideal.div _ (max (Ideal.sqrt s) _)) (Finset.sum_congr rfl fun k' _ => Finset.sum_congr rfl fun d' _ => ?_)
  have hk : idx_main_call1_v1 (ix1 b) (flat k' d') = ix2 b (flat k' d') :=
    funext fun a => match a with | ⟨0, _⟩ => rfl | ⟨1, _⟩ => rfl
  rw [val_main_call1_v0_apply, hk, flatten_apply]
  rfl

/-! ## The plain program's result is the descriptor -/

theorem result_apply (b : Fin 32) (k : Fin 64) (d : Fin 512) :
    val_main_v34 (F := Ideal) x0 x1 x2 x3 (ix2 b (flat k d))
      = descriptor (frames x0 b) (weights x2) (biases x3) (centres x1) k d := by
  rw [wholeUnit_apply]
  unfold descriptor
  refine congrArg (fun N => allUnit N k d) (funext fun k => funext fun d => ?_)
  rw [rowUnits_apply]
  refine congrArg (fun R => rowUnit R k d) (funext fun k => funext fun d => ?_)
  rw [leftovers_apply]
  refine congrArg (fun A => leftover A (frames x0 b) (centres x1) k d) (funext fun t => funext fun k => ?_)
  rw [shares_apply]
  exact congrArg (fun f => share f k) (funext fun k' => scores_apply x0 x2 x3 b k' t)

end Cert.ReferenceIdeal.Stages

end
-- ==== Proof.lean ====
/-
  The kernel and the plain program compute one descriptor.

  For each batch entry both take the assignment scores of every frame for every cluster (frames times transposed weights
  plus bias), turn each frame's scores into shares by the shifted exponential quotient, form for each cluster the
  share-weighted sum of the frames minus the summed shares times the cluster's centre, divide each such row by its floored
  Euclidean length and the whole table by its own floored length. The kernel does this per grid point on blocks, with the
  cluster axis last in the scores; the plain program does it on whole arrays with the cluster axis in the middle, and
  takes the last length over the flattened table. Over the extended reals the two differ only in the order of the factors
  of the first product and in the grouping of the last sum, so no finiteness of the inputs is used.
  `Cert.Descriptor` states the function; `Cert.KernelIdeal.Body` and `Cert.KernelIdeal.Whole` read the kernel's stored
  block and its run; `Cert.ReferenceIdeal.Stages` reads the plain program; here the two meet.
-/
import proofs.«180768_j65575560675841_1_alg».proof.Defs
import proofs.«180768_j65575560675841_1_alg».proof.Proof.Gen.Kernel
import proofs.«180768_j65575560675841_1_alg».proof.Proof.Gen.Kernel.Skeleton
import proofs.«180768_j65575560675841_1_alg».proof.Proof.Gen.Kernel.Launch
import proofs.«180768_j65575560675841_1_alg».proof.Proof.Gen.Kernel.Points
import proofs.«180768_j65575560675841_1_alg».proof.Proof.Gen.Kernel.Frame
import proofs.«180768_j65575560675841_1_alg».proof.Proof.Gen.KernelIdeal
import proofs.«180768_j65575560675841_1_alg».proof.Proof.Gen.KernelIdeal.Skeleton
import proofs.«180768_j65575560675841_1_alg».proof.Proof.Gen.KernelIdeal.Launch
import proofs.«180768_j65575560675841_1_alg».proof.Proof.Gen.KernelIdeal.Points
import proofs.«180768_j65575560675841_1_alg».proof.Proof.Gen.KernelIdeal.Frame
import proofs.«180768_j65575560675841_1_alg».proof.Proof.Gen.ReferenceIdeal
import proofs.«180768_j65575560675841_1_alg».proof.Proof.Gen.ReferenceIdeal.Run
import proofs.«180768_j65575560675841_1_alg».proof.Proof.Gen.ReferenceIdeal.Read
import proofs.«180768_j65575560675841_1_alg».proof.Proof.Gen.Pre_finite_inputs
import proofs.«180768_j65575560675841_1_alg».proof.Proof.KernelRun
import proofs.«180768_j65575560675841_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

/-- The plain program's result term, of the kernel program's arguments, is the flattened table the kernel returns:
    at `(b, j)` both are the descriptor of batch entry `b` at cluster `j / 512` and feature `j mod 512`. -/
theorem plain_eq_result (m : (ℓ : Loc Cert.KernelIdeal.nD Cert.KernelIdeal.τ Cert.KernelIdeal.sig) → Buf (Elt Ideal) ℓ)
    (c : Dev Cert.KernelIdeal.nD) :
    Cert.ReferenceIdeal.Read.val_main_v34 (F := Ideal) (Cert.KernelIdeal.Whole.argX m c) (Cert.KernelIdeal.Whole.argC m c)
        (Cert.KernelIdeal.Whole.argW m c) (Cert.KernelIdeal.Whole.argB m c)
      = Cert.KernelIdeal.Whole.result m c := by
  funext i
  obtain ⟨b, j, rfl⟩ : ∃ (b : Fin 32) (j : Fin 32768), i = ix2 b j := ⟨i 0, i 1, eq_ix2 i⟩
  have hj := j.isLt
  have hidx : ix2 b (Cert.ReferenceIdeal.Stages.flat ⟨j.val / 512, by omega⟩ ⟨j.val % 512, Nat.mod_lt _ (by decide)⟩) = ix2 b j :=
    congrArg (ix2 b) (Fin.ext (by show j.val / 512 * 512 + j.val % 512 = j.val; omega))
  refine ((congrArg _ hidx.symm).trans (Cert.ReferenceIdeal.Stages.result_apply _ _ _ _ b _ _)).trans ?_
  rfl

/-- Both programs end with the same returned buffer. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2]
  exact plain_eq_result m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
